-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S32x48x2048x32 : Shape := ⟨4, ![32, 48, 2048, 32]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S32x48x2048x32 : S_.BroadcastsInDim S32x48x2048x32 (![] : Fin 0 → Fin S32x48x2048x32.rank)
  reducesTo_S32x48x2048x32_S_d0_1_2_3 : S32x48x2048x32.ReducesTo [0, 1, 2, 3] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2048x64 .f32) (main_arg1 : FVec F S2048x64 .f32) (main_arg2 : FVec F S32x48x2048x32 .f32) (main_arg3 : FVec F S128x64 .f32) (main_arg4 : FVec F S64 .f32) (main_arg5 : FVec F S64x1 .f32) (main_arg6 : FVec F S1 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S32x48x2048x32 .f32 := Host.absf main_arg2
  let main_cst_2 : FVec F S_ .f32 := constant S_ .f32 0x7F800000#32
  let main_v10 : FVec F S32x48x2048x32 .f32 := broadcastInDim S32x48x2048x32 ![] bcast_S_S32x48x2048x32 main_cst_2
  let main_v11 : IVec S32x48x2048x32 1 := cmpf .olt main_v9 main_v10
  let main_c_3 : IVec S_ 1 := constantI S_ 1 1#1
  let main_v12 : IVec S_ 1 := (fun x v => Host.reduce IntOp.andi x v reducesTo_S32x48x2048x32_S_d0_1_2_3 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S2048x64 : Shape := ⟨2, ![2048, 64]⟩
abbrev S32x48x2048x32 : Shape := ⟨4, ![32, 48, 2048, 32]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S2048x32 : Shape := ⟨2, ![2048, 32]⟩
abbrev S2048x128 : Shape := ⟨2, ![2048, 128]⟩
abbrev S2048x1 : Shape := ⟨2, ![2048, 1]⟩
abbrev S1x65536 : Shape := ⟨2, ![1, 65536]⟩
abbrev S1536x65536 : Shape := ⟨2, ![1536, 65536]⟩
abbrev S128x8192 : Shape := ⟨2, ![128, 8192]⟩
abbrev S1x8192 : Shape := ⟨2, ![1, 8192]⟩

abbrev nBuf : Space → Nat
  | .hbm => 14
  | .vmem => 13
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S32x48x2048x32, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1x64, .f32⟩
  | .hbm, ⟨8, _⟩ => ⟨S1x1, .f32⟩
  | .hbm, ⟨9, _⟩ => ⟨S2048x32, .f32⟩
  | .hbm, ⟨10, _⟩ => ⟨S1x65536, .f32⟩
  | .hbm, ⟨11, _⟩ => ⟨S1536x65536, .f32⟩
  | .hbm, ⟨12, _⟩ => ⟨S1536x65536, .f32⟩
  | .hbm, ⟨13, _⟩ => ⟨S32x48x2048x32, .f32⟩
  | .local _ .vmem, ⟨0, _⟩ => ⟨S2048x64, .f32⟩
  | .local _ .vmem, ⟨1, _⟩ => ⟨S2048x64, .f32⟩
  | .local _ .vmem, ⟨2, _⟩ => ⟨S128x64, .f32⟩
  | .local _ .vmem, ⟨3, _⟩ => ⟨S1x64, .f32⟩
  | .local _ .vmem, ⟨4, _⟩ => ⟨S64x1, .f32⟩
  | .local _ .vmem, ⟨5, _⟩ => ⟨S1x1, .f32⟩
  | .local _ .vmem, ⟨6, _⟩ => ⟨S2048x32, .f32⟩
  | .local _ .vmem, ⟨7, _⟩ => ⟨S128x8192, .f32⟩
  | .local _ .vmem, ⟨8, _⟩ => ⟨S128x8192, .f32⟩
  | .local _ .vmem, ⟨9, _⟩ => ⟨S1x8192, .f32⟩
  | .local _ .vmem, ⟨10, _⟩ => ⟨S1x8192, .f32⟩
  | .local _ .vmem, ⟨11, _⟩ => ⟨S128x8192, .f32⟩
  | .local _ .vmem, ⟨12, _⟩ => ⟨S128x8192, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![12, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S64_S1x64 : S64.ShapeCasts S1x64
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  concatenates_S2048x64_S2048x64_S2048x128_d1 : Shape.Concatenates [S2048x64, S2048x64] S2048x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  shapeCasts_S2048x1_S2048x1 : S2048x1.ShapeCasts S2048x1
  broadcasts_S2048x1_S2048x32 : S2048x1.Broadcasts S2048x32
  inb_S2048x32_S2048x32_0_0 : ∀ a, (![0, 0] : Fin 2 → Nat) a + S2048x32.size a ≤ S2048x32.size a
  h_S2048x32 : 0 < S2048x32.numel
  shapeCasts_S2048x32_S1x65536 : S2048x32.ShapeCasts S1x65536
  shapeCasts_S32x48x2048x32_S1536x65536 : S32x48x2048x32.ShapeCasts S1536x65536
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  shapeCasts_S1536x65536_S32x48x2048x32 : S1536x65536.ShapeCasts S32x48x2048x32
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S2048x64.size a
  hwx0_0 : ∀ i : grid0.Coords, EltTy.bits .f32 = 32 ∨ (Rect.block (s := S2048x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x32.size a ≤ S2048x32.size a
  hwx0_6 : ∀ i : grid0.Coords, EltTy.bits .f32 = 32 ∨ (Rect.block (s := S2048x32) S2048x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S1536x65536.size a
  hwx1_0 : ∀ i : grid1.Coords, EltTy.bits .f32 = 32 ∨ (Rect.block (s := S1536x65536) S128x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x65536.size a
  hwx1_1 : ∀ i : grid1.Coords, EltTy.bits .f32 = 32 ∨ (Rect.block (s := S1x65536) S1x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x8192.size a ≤ S1536x65536.size a
  hwx1_2 : ∀ i : grid1.Coords, EltTy.bits .f32 = 32 ∨ (Rect.block (s := S1536x65536) S128x8192.size (cc1_transform_2 i) (hinb1_2 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2048x32.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x64 : Shape := ⟨2, ![2048, 64]⟩
abbrev S32x48x2048x32 : Shape := ⟨4, ![32, 48, 2048, 32]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2048x128 : Shape := ⟨2, ![2048, 128]⟩
abbrev S1x64 : Shape := ⟨2, ![1, 64]⟩
abbrev S_ : Shape := ⟨0, ![]⟩
abbrev S2048x1 : Shape := ⟨2, ![2048, 1]⟩
abbrev S1x1 : Shape := ⟨2, ![1, 1]⟩
abbrev S1x1x2048x1 : Shape := ⟨4, ![1, 1, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S32x48x2048x32, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S2048x128, .f32⟩
  | .hbm, ⟨8, _⟩ => ⟨S2048x64, .f32⟩
  | .hbm, ⟨9, _⟩ => ⟨S1x64, .f32⟩
  | .hbm, ⟨10, _⟩ => ⟨S2048x64, .f32⟩
  | .hbm, ⟨11, _⟩ => ⟨S2048x64, .f32⟩
  | .hbm, ⟨12, _⟩ => ⟨S_, .f32⟩
  | .hbm, ⟨13, _⟩ => ⟨S2048x64, .f32⟩
  | .hbm, ⟨14, _⟩ => ⟨S2048x64, .f32⟩
  | .hbm, ⟨15, _⟩ => ⟨S2048x1, .f32⟩
  | .hbm, ⟨16, _⟩ => ⟨S1x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S1x1x2048x1, .f32⟩
  | .hbm, ⟨28, _⟩ => ⟨S32x48x2048x32, .f32⟩
  | .hbm, ⟨29, _⟩ => ⟨S32x48x2048x32, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  concatenates_S2048x64_S2048x64_S2048x128_d1 : Shape.Concatenates [S2048x64, S2048x64] S2048x128 1
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  bcast_S2048x1_S1x1x2048x1_2_3 : S2048x1.BroadcastsInDim S1x1x2048x1 (![2, 3] : Fin 2 → Fin S1x1x2048x1.rank)
  bcast_S1x1x2048x1_S32x48x2048x32_0_1_2_3 : S1x1x2048x1.BroadcastsInDim S32x48x2048x32 (![0, 1, 2, 3] : Fin 4 → Fin S32x48x2048x32.rank)
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

class Facts : Prop extends Facts₀ where

variable [Facts]
-- ==== Proof.GateRegion.lean ====
/-
  The first region's result array, for any contents the region is entered with.

  The gate kernel runs on a grid of one point and every window's block is its whole array, so each input block read
  through its window is the array itself, and the one write-back is the body's single store: the broadcast gate computed
  from the six arrays. That one block covers the [2048, 32] result, which therefore ends holding exactly that value.
-/
import proofs.«151967_j6640019440014_1_alg».proof.Proof.Gen.KernelIdeal.Frame
import Idealize.ShloMosaic.Lib.Pipeline.Value

set_option maxRecDepth 16384

noncomputable section

namespace Cert.KernelIdeal.GateRegion

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_pair : (![0, 0] : Fin 2 → Nat) = fun _ => 0 := funext fun a => by fin_cases a <;> rfl

/-- On the one-point grid every window's block index is zero on both axes. -/
theorem index_zero : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The first embedding's block is the whole array. -/
theorem block_u (c : Dev nD) (t : Fin cfg0.N) : iblk0 V c 0 t = V c main_arg0 := by
  have hz : (fun a => win0_0.index t a * main_arg0.ty.shape.size a) = fun _ => 0 :=
    funext fun a => by rw [(index_zero t).1]; fin_cases a <;> rfl
  exact Memref.read_access_unit_zero (Elt F) main_arg0 hz (fun a => by rw [congrFun hz a]; simp) (V c main_arg0)

/-- The second embedding's block is the whole array. -/
theorem block_d (c : Dev nD) (t : Fin cfg0.N) : iblk0 V c 1 t = V c main_arg1 := by
  have hz : (fun a => win0_1.index t a * main_arg1.ty.shape.size a) = fun _ => 0 :=
    funext fun a => by rw [(index_zero t).2.1]; fin_cases a <;> rfl
  exact Memref.read_access_unit_zero (Elt F) main_arg1 hz (fun a => by rw [congrFun hz a]; simp) (V c main_arg1)

/-- The first layer's weights: the block is the whole array. -/
theorem block_w1 (c : Dev nD) (t : Fin cfg0.N) : iblk0 V c 2 t = V c main_arg3 := by
  have hz : (fun a => win0_2.index t a * main_arg3.ty.shape.size a) = fun _ => 0 :=
    funext fun a => by rw [(index_zero t).2.2.1]; fin_cases a <;> rfl
  exact Memref.read_access_unit_zero (Elt F) main_arg3 hz (fun a => by rw [congrFun hz a]; simp) (V c main_arg3)

/-- The first layer's bias as a row: the block is the whole array. -/
theorem block_b1 (c : Dev nD) (t : Fin cfg0.N) : iblk0 V c 3 t = V c main_v0 := by
  have hz : (fun a => win0_3.index t a * main_v0.ty.shape.size a) = fun _ => 0 :=
    funext fun a => by rw [(index_zero t).2.2.2.1]; fin_cases a <;> rfl
  exact Memref.read_access_unit_zero (Elt F) main_v0 hz (fun a => by rw [congrFun hz a]; simp) (V c main_v0)

/-- The output column's weights: the block is the whole array. -/
theorem block_w2 (c : Dev nD) (t : Fin cfg0.N) : iblk0 V c 4 t = V c main_arg5 := by
  have hz : (fun a => win0_4.index t a * main_arg5.ty.shape.size a) = fun _ => 0 :=
    funext fun a => by rw [(index_zero t).2.2.2.2.1]; fin_cases a <;> rfl
  exact Memref.read_access_unit_zero (Elt F) main_arg5 hz (fun a => by rw [congrFun hz a]; simp) (V c main_arg5)

/-- The output bias as a one-by-one array: the block is the whole array. -/
theorem block_b2 (c : Dev nD) (t : Fin cfg0.N) : iblk0 V c 5 t = V c main_v1 := by
  have hz : (fun a => win0_5.index t a * main_v1.ty.shape.size a) = fun _ => 0 :=
    funext fun a => by rw [(index_zero t).2.2.2.2.2.1]; fin_cases a <;> rfl
  exact Memref.read_access_unit_zero (Elt F) main_v1 hz (fun a => by rw [congrFun hz a]; simp) (V c main_v1)

/-- The broadcast gate as the body computes it from the six arrays the region is entered with. -/
abbrev gateArray (c : Dev nD) : Buf (Elt F) ((c : Thread nD τ).loc main_v2) :=
  k0_pay1 (V c main_arg0) (V c main_arg1) (V c main_arg3) (V c main_v0) (V c main_arg5) (V c main_v1)

/-- The one point writes back that array: its store's payload over the whole input arrays, read through a block that is
    the whole result. -/
theorem flushed_eq (c : Dev nD) (t : Fin cfg0.N) :
    (dat0 V c).flushed 6 t = ((cfg0.win 6).blk t).view.read (Elt F) (gateArray V c) := by
  show (cfg0.win 6).cut (grid0.coords t) ((dat0 V c).after 6 t) = _
  rw [after0_6]
  unfold out0_6
  rw [View.canon_unit_zero zero_pair]
  simp only [View.ld_unit_zero (S := S2048x64) zero_pair, View.ld_unit_zero (S := S128x64) zero_pair,
    View.ld_unit_zero (S := S1x64) zero_pair, View.ld_unit_zero (S := S64x1) zero_pair, View.ld_unit_zero (S := S1x1) zero_pair]
  rw [block_u, block_d, block_w1, block_b1, block_w2, block_b2]
  have hz : (fun a => win0_6.index t a * main_v2.ty.shape.size a) = fun _ => 0 :=
    funext fun a => by rw [(index_zero t).2.2.2.2.2.2]; fin_cases a <;> rfl
  exact (Memref.read_access_unit_zero (Elt F) main_v2 hz (fun a => by rw [congrFun hz a]; simp) (gateArray V c)).symm

/-- So the region's result array ends holding the broadcast gate: the one point's block is the whole array. -/
theorem result_eq (c : Dev nD) : (dat0 V c).arrAt 6 cfg0.N = gateArray V c :=
  (dat0 V c).arrAt_eq_of_cover 6 (gateArray V c) (fun t _ => flushed_eq V c t) fun i =>
    ⟨t0_0, flush0_6 t0_0, by
      show i ∈ ((View.whole main_v2).slice (win0_6.rect t0_0)).set
      rw [View.set_slice_whole, Rect.mem_set_unit]
      intro a
      have h0 : (i 0 : Nat) < 2048 := (i 0).isLt
      have h1 : (i 1 : Nat) < 32 := (i 1).isLt
      have hi : win0_6.index t0_0 = ![0, 0] := (index_zero t0_0).2.2.2.2.2.2
      match a with
      | ⟨0, _⟩ =>
        show win0_6.index t0_0 0 * 2048 ≤ (i 0 : Nat) ∧ (i 0 : Nat) < win0_6.index t0_0 0 * 2048 + 2048
        rw [hi]; show 0 * 2048 ≤ (i 0 : Nat) ∧ (i 0 : Nat) < 0 * 2048 + 2048; omega
      | ⟨1, _⟩ =>
        show win0_6.index t0_0 1 * 32 ≤ (i 1 : Nat) ∧ (i 1 : Nat) < win0_6.index t0_0 1 * 32 + 32
        rw [hi]; show 0 * 32 ≤ (i 1 : Nat) ∧ (i 1 : Nat) < 0 * 32 + 32; omega⟩

end Cert.KernelIdeal.GateRegion

end
-- ==== Proof.ScaleRegion.lean ====
/-
  The second region's result array, for any contents the region is entered with.

  The multiply kernel runs over a 12 by 8 grid of 128 by 8192 blocks of the flattened [1536, 65536] history. At a point
  the history block and the result block sit at the same block index, and the gate row's block sits at the same column
  block, so the entry the point writes at (r, q) is the history at (r, q) times the gate row at (0, q). The 96 blocks tile
  the array (the block holding (r, q) is the one at (r / 128, q / 8192)), so the array ends as that product everywhere.
-/
import proofs.«151967_j6640019440014_1_alg».proof.Proof.Gen.KernelIdeal.Frame
import Idealize.ShloMosaic.Lib.Pipeline.Value
import Idealize.ShloMosaic.Lib.ValueIdx

set_option maxRecDepth 16384

noncomputable section

namespace Cert.KernelIdeal.ScaleRegion

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem zero_pair : (![0, 0] : Fin 2 → Nat) = fun _ => 0 := funext fun a => by fin_cases a <;> rfl

/-- Every row of `a` scaled entry by entry by the one row `g`. -/
abbrev rowScaled (a : S1536x65536.Idx → Elt F .f32) (g : S1x65536.Idx → Elt F .f32) : S1536x65536.Idx → Elt F .f32 :=
  fun i => FloatOps.mulf (a i) (g (ix2 (0 : Fin 1) (⟨(i 1).val, (i 1).isLt⟩ : Fin 65536)))

/-- The body's store at an entry of the block: the history entry times the gate row's entry in the same column. -/
theorem payload_apply (x0 : Vec F S128x8192 .f32) (x1 : Vec F S1x8192 .f32) (j : S128x8192.Idx) :
    k1_pay1 x0 x1 j = FloatOps.mulf (x0 j) (x1 (ix2 (0 : Fin 1) (⟨(j 1).val, (j 1).isLt⟩ : Fin 8192))) := by
  unfold k1_pay1
  show FloatOps.mulf (shapeCast S128x8192 x0 shapeCasts_S128x8192_S128x8192 j)
    (broadcastTo S128x8192 (shapeCast S1x8192 x1 shapeCasts_S1x8192_S1x8192) broadcasts_S1x8192_S128x8192 j) = _
  rw [shapeCast_self, shapeCast_self,
    broadcastTo_apply x1 broadcasts_S1x8192_S128x8192 j (ix2 (0 : Fin 1) (⟨(j 1).val, (j 1).isLt⟩ : Fin 8192)) (fun a => match a with
      | ⟨0, _⟩ => by show 0 = if (1 : Nat) = 1 then 0 else _; rw [if_pos rfl]
      | ⟨1, _⟩ => by show (j 1).val = if (8192 : Nat) = 1 then 0 else (j 1).val; rw [if_neg (by decide)])]

/-- The printed index maps over the 96 points: history and result blocks coincide, the gate row's block is on row block
    zero and on the result's column block, and the result's block indices stay inside the 12 by 8 box. -/
theorem index_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = win1_2.index t (1 : Fin 2)
    ∧ win1_2.index t (0 : Fin 2) ≤ 11 ∧ win1_2.index t (1 : Fin 2) ≤ 7 :=
  (by decide +kernel : ∀ t : Fin grid1.N, _)

/-- Every block of the 12 by 8 box is some point's. -/
theorem index_onto : ∀ (q0 : Fin 12) (q1 : Fin 8), ∃ t : Fin cfg1.N, win1_2.index t = ![q0.val, q1.val] :=
  (by decide +kernel : ∀ (q0 : Fin 12) (q1 : Fin 8), ∃ t : Fin grid1.N, win1_2.index t = ![q0.val, q1.val])

/-- The array the region leaves: the flattened history scaled row by row by the flattened gate. -/
abbrev product (c : Dev nD) : Buf (Elt F) ((c : Thread nD τ).loc main_v5) :=
  rowScaled (V c main_v4) (V c main_v3)

/-- What point `t` writes back is block `t` of that product. -/
theorem flushed_eq (c : Dev nD) (t : Fin cfg1.N) :
    (dat1 V c).flushed 2 t = ((cfg1.win 2).blk t).view.read (Elt F) (product V c) := by
  show (cfg1.win 2).cut (grid1.coords t) ((dat1 V c).after 2 t) = _
  rw [after1_2]
  unfold out1_2
  rw [View.canon_unit_zero zero_pair]
  simp only [View.ld_unit_zero (S := S128x8192) zero_pair, View.ld_unit_zero (S := S1x8192) zero_pair]
  obtain ⟨e0, e1, e2, e3, e4, e5⟩ := index_facts t
  funext j
  show k1_pay1 (iblk1 V c 0 t) (iblk1 V c 1 t) j = product V c (((cfg1.win 2).blk t).view.emb j)
  rw [payload_apply]
  have hj0 : (j 0).val < 128 := (j 0).isLt
  have hj1 : (j 1).val < 8192 := (j 1).isLt
  have h0 : ((cfg1.win 0).blk t).view.emb j = ((cfg1.win 2).blk t).view.emb j := by
    funext a; apply Fin.ext
    match a with
    | ⟨0, _⟩ => show win1_0.index t (0 : Fin 2) * 128 + 1 * (j 0).val = win1_2.index t (0 : Fin 2) * 128 + 1 * (j 0).val; omega
    | ⟨1, _⟩ => show win1_0.index t (1 : Fin 2) * 8192 + 1 * (j 1).val = win1_2.index t (1 : Fin 2) * 8192 + 1 * (j 1).val; omega
  have h1 : ((cfg1.win 1).blk t).view.emb (ix2 (0 : Fin 1) (⟨(j 1).val, (j 1).isLt⟩ : Fin 8192))
      = ix2 (0 : Fin 1) (⟨((((cfg1.win 2).blk t).view.emb j) 1).val, ((((cfg1.win 2).blk t).view.emb j) 1).isLt⟩ : Fin 65536) := by
    funext a; apply Fin.ext
    match a with
    | ⟨0, _⟩ => show win1_1.index t (0 : Fin 2) * 1 + 1 * 0 = 0; omega
    | ⟨1, _⟩ => show win1_1.index t (1 : Fin 2) * 8192 + 1 * (j 1).val = win1_2.index t (1 : Fin 2) * 8192 + 1 * (j 1).val; omega
  show FloatOps.mulf (V c main_v4 (((cfg1.win 0).blk t).view.emb j))
      (V c main_v3 (((cfg1.win 1).blk t).view.emb (ix2 (0 : Fin 1) (⟨(j 1).val, (j 1).isLt⟩ : Fin 8192))))
    = FloatOps.mulf (V c main_v4 (((cfg1.win 2).blk t).view.emb j))
      (V c main_v3 (ix2 (0 : Fin 1) (⟨((((cfg1.win 2).blk t).view.emb j) 1).val, ((((cfg1.win 2).blk t).view.emb j) 1).isLt⟩ : Fin 65536)))
  rw [h0, h1]

/-- An index of the array is in point `t`'s block iff each coordinate is in the block's range on its axis. -/
theorem mem_block (t : Fin cfg1.N) (i : S1536x65536.Idx) :
    i ∈ ((cfg1.win 2).blk t).view.set ↔ ∀ a : Fin 2, win1_2.index t a * S128x8192.size a ≤ (i a).val ∧ (i a).val < win1_2.index t a * S128x8192.size a + S128x8192.size a := by
  show i ∈ ((View.whole main_v5).slice (win1_2.rect t)).set ↔ _
  rw [View.set_slice_whole, Rect.mem_set_unit]
  exact Iff.rfl

/-- So the region's result array ends holding the product: the block at (r / 128, q / 8192) holds the entry (r, q). -/
theorem result_eq (c : Dev nD) : (dat1 V c).arrAt 2 cfg1.N = product V c :=
  (dat1 V c).arrAt_eq_of_cover 2 (product V c) (fun t _ => flushed_eq V c t) fun i => by
    have hi0 : (i 0).val < 1536 := (i 0).isLt
    have hi1 : (i 1).val < 65536 := (i 1).isLt
    obtain ⟨t, ht⟩ := index_onto ⟨(i 0).val / 128, by omega⟩ ⟨(i 1).val / 8192, by omega⟩
    have q0 : win1_2.index t (0 : Fin 2) = (i 0).val / 128 := congrFun ht 0
    have q1 : win1_2.index t (1 : Fin 2) = (i 1).val / 8192 := congrFun ht 1
    refine ⟨t, flush1_2 t, ?_⟩
    rw [mem_block]
    intro a
    match a with
    | ⟨0, _⟩ => show win1_2.index t (0 : Fin 2) * 128 ≤ (i 0).val ∧ (i 0).val < win1_2.index t (0 : Fin 2) * 128 + 128; omega
    | ⟨1, _⟩ => show win1_2.index t (1 : Fin 2) * 8192 ≤ (i 1).val ∧ (i 1).val < win1_2.index t (1 : Fin 2) * 8192 + 8192; omega

end Cert.KernelIdeal.ScaleRegion

end
-- ==== Proof.Stretches.lean ====
/-
  The result array of the two-region program as one term of the launch memory.

  The host side is five reshapes, all row-major relabellings: the two biases gain a leading unit axis before the gate
  region; the region's [2048, 32] gate array is flattened to one row of 65536 and the history to [1536, 65536] before the
  multiply region; the product is folded back to [32, 48, 2048, 32] at the end. Between the stretches each region replaces
  its result array by what its closing lemma says and leaves every other array alone. Chaining these gives the result.
-/
import proofs.«151967_j6640019440014_1_alg».proof.Proof.GateRegion
import proofs.«151967_j6640019440014_1_alg».proof.Proof.ScaleRegion
import Idealize.ShloMosaic.Lib.StableHlo.Run

set_option maxRecDepth 16384

noncomputable section

namespace Cert.KernelIdeal.Stretches

open Cert.KernelIdeal Cert.KernelIdeal.Gen Idealize.ShloMosaic Idealize.ShloMosaic.TcCoe Idealize.SL.Sem
open Idealize.ShloMosaic.StableHlo

variable {F : FTy → Type} [FloatOps F]

/-! ## Each stretch, from any contents -/

section AnyContents
variable (X : Valuation τ sig (Elt F))

/-- The first stretch leaves the first bias as a [1, 64] row. -/
theorem first_b1 : after hostOps0 X (Proc.devRef .tc main_v0) = shapeCast S1x64 (X (Proc.devRef .tc main_arg4)) shapeCasts_S64_S1x64 := by
  after_results; rfl
/-- The first stretch leaves the output bias as a [1, 1] array. -/
theorem first_b2 : after hostOps0 X (Proc.devRef .tc main_v1) = shapeCast S1x1 (X (Proc.devRef .tc main_arg6)) shapeCasts_S1_S1x1 := by
  after_results; rfl
/-- The first stretch writes no argument. -/
theorem first_keeps (r : Ref sig .tc) (h0 : r ≠ main_v0) (h1 : r ≠ main_v1) : after hostOps0 X (Proc.devRef .tc r) = X (Proc.devRef .tc r) := by
  simp only [after_cons, after_nil]
  rw [reshape_result_ne (h := h1), reshape_result_ne (h := h0)]

/-- The second stretch flattens the gate array to one row. -/
theorem second_gate : after hostOps1 X (Proc.devRef .tc main_v3) = shapeCast S1x65536 (X (Proc.devRef .tc main_v2)) shapeCasts_S2048x32_S1x65536 := by
  after_results; rfl
/-- The second stretch flattens the history to [1536, 65536]. -/
theorem second_hist : after hostOps1 X (Proc.devRef .tc main_v4) = shapeCast S1536x65536 (X (Proc.devRef .tc main_arg2)) shapeCasts_S32x48x2048x32_S1536x65536 := by
  after_results; rfl

/-- The last stretch folds the product back to [32, 48, 2048, 32]. -/
theorem third_result : after hostOps2 X (Proc.devRef .tc main_v6) = shapeCast S32x48x2048x32 (X (Proc.devRef .tc main_v5)) shapeCasts_S1536x65536_S32x48x2048x32 := by
  after_results; rfl

end AnyContents

/-! ## The chain from the launch memory -/

variable (m : (ℓ : Loc nD τ sig) → Buf (Elt F) ℓ) (ρ : Dev nD → PrngReg)

/-- The gate array the first region leaves, as the body's value of the launch arrays (the two biases reshaped). -/
abbrev gateFromLaunch (c : Dev nD) : S2048x32.Idx → Elt F .f32 :=
  k0_pay1 (m ((c.tc : Thread nD τ).loc main_arg0)) (m ((c.tc : Thread nD τ).loc main_arg1)) (m ((c.tc : Thread nD τ).loc main_arg3))
    (shapeCast S1x64 (m ((c.tc : Thread nD τ).loc main_arg4)) shapeCasts_S64_S1x64) (m ((c.tc : Thread nD τ).loc main_arg5))
    (shapeCast S1x1 (m ((c.tc : Thread nD τ).loc main_arg6)) shapeCasts_S1_S1x1)

/-- The whole program's result from the launch arrays: the flattened history scaled row by row by the flattened gate
    array, folded back to four axes. -/
abbrev resultFromLaunch (c : Dev nD) : S32x48x2048x32.Idx → Elt F .f32 :=
  shapeCast S32x48x2048x32
    (ScaleRegion.rowScaled (shapeCast S1536x65536 (m ((c.tc : Thread nD τ).loc main_arg2)) shapeCasts_S32x48x2048x32_S1536x65536)
      (shapeCast S1x65536 (gateFromLaunch m c) shapeCasts_S2048x32_S1x65536))
    shapeCasts_S1536x65536_S32x48x2048x32

/-- What the first region is entered with gives the gate array of the launch arrays. -/
theorem gate_entry (c : Dev nD) : GateRegion.gateArray (V1 m ρ) c = gateFromLaunch m c := by
  have a0 : V1 m ρ c main_arg0 = m ((c.tc : Thread nD τ).loc main_arg0) := first_keeps (W0 m ρ c) main_arg0 (by decide) (by decide)
  have a1 : V1 m ρ c main_arg1 = m ((c.tc : Thread nD τ).loc main_arg1) := first_keeps (W0 m ρ c) main_arg1 (by decide) (by decide)
  have a3 : V1 m ρ c main_arg3 = m ((c.tc : Thread nD τ).loc main_arg3) := first_keeps (W0 m ρ c) main_arg3 (by decide) (by decide)
  have a5 : V1 m ρ c main_arg5 = m ((c.tc : Thread nD τ).loc main_arg5) := first_keeps (W0 m ρ c) main_arg5 (by decide) (by decide)
  have b1 : V1 m ρ c main_v0 = shapeCast S1x64 (m ((c.tc : Thread nD τ).loc main_arg4)) shapeCasts_S64_S1x64 := first_b1 (W0 m ρ c)
  have b2 : V1 m ρ c main_v1 = shapeCast S1x1 (m ((c.tc : Thread nD τ).loc main_arg6)) shapeCasts_S1_S1x1 := first_b2 (W0 m ρ c)
  show k0_pay1 (V1 m ρ c main_arg0) (V1 m ρ c main_arg1) (V1 m ρ c main_arg3) (V1 m ρ c main_v0) (V1 m ρ c main_arg5) (V1 m ρ c main_v1) = _
  rw [a0, a1, a3, a5, b1, b2]

/-- After the first region the gate array is in place … -/
theorem after_gate (c : Dev nD) : W2 m ρ c (Proc.devRef .tc main_v2) = gateFromLaunch m c :=
  (W2_arr m ρ c 6).trans ((GateRegion.result_eq (V1 m ρ) c).trans (gate_entry m ρ c))

/-- … and the history is as launched. -/
theorem after_gate_hist (c : Dev nD) : W2 m ρ c (Proc.devRef .tc main_arg2) = m ((c.tc : Thread nD τ).loc main_arg2) :=
  (W2_of_ne m ρ c main_arg2 (by decide)).trans (first_keeps (W0 m ρ c) main_arg2 (by decide) (by decide))

/-- The second region's product, from the launch arrays. -/
theorem after_product (c : Dev nD) : W4 m ρ c (Proc.devRef .tc main_v5)
    = ScaleRegion.rowScaled (shapeCast S1536x65536 (m ((c.tc : Thread nD τ).loc main_arg2)) shapeCasts_S32x48x2048x32_S1536x65536)
        (shapeCast S1x65536 (gateFromLaunch m c) shapeCasts_S2048x32_S1x65536) := by
  have e4 : V3 m ρ c main_v4 = shapeCast S1536x65536 (m ((c.tc : Thread nD τ).loc main_arg2)) shapeCasts_S32x48x2048x32_S1536x65536 :=
    (second_hist (W2 m ρ c)).trans (by rw [after_gate_hist])
  have e3 : V3 m ρ c main_v3 = shapeCast S1x65536 (gateFromLaunch m c) shapeCasts_S2048x32_S1x65536 :=
    (second_gate (W2 m ρ c)).trans (by rw [after_gate])
  refine (W4_arr m ρ c 2).trans ((ScaleRegion.result_eq (V3 m ρ) c).trans ?_)
  show ScaleRegion.rowScaled (V3 m ρ c main_v4) (V3 m ρ c main_v3) = _
  rw [e4, e3]

/-- The result array after the whole program, from the launch arrays. -/
theorem result_eq (c : Dev nD) : W5 m ρ c (Proc.devRef .tc main_v6) = resultFromLaunch m c :=
  (third_result (W4 m ρ c)).trans (by rw [after_product])

end Cert.KernelIdeal.Stretches

end
-- ==== Proof.GateSpec.lean ====
/-
  The function both programs compute, written once over the extended reals.

  A node `n` of the 2048 has a feature row of length 128 (its two embeddings side by side). The hidden layer is
  `hiddenUnit n k = max (Σ_j feat (n, j) · W1 (j, k) + b1 k) 0` for the 64 hidden units, the logit is
  `logit n = Σ_k hiddenUnit n k · W2 (k, 0) + b2 0`, and the gate is the logistic function of the logit,
  `1 / (1 + e^(-logit n))` with its limits at the infinities. The result scales every history entry of node `n`,
  whatever its batch, time and channel, by that node's gate.

  The concatenated features are a parameter here: both programs build them by the same operation, so no proof has
  to open it.
-/
import Idealize.ShloMosaic.Lib.ValueIdx

noncomputable section

open scoped BigOperators

namespace Cert.GateSpec

open Idealize.ShloMosaic Idealize.ShloMosaic.ValueIdx

/-- Hidden unit `k` of node `n`: the rectified affine form of the node's feature row. -/
def hiddenUnit (feat : (⟨2, ![2048, 128]⟩ : Shape).Idx → EReal) (w1 : (⟨2, ![128, 64]⟩ : Shape).Idx → EReal)
    (b1 : (⟨1, ![64]⟩ : Shape).Idx → EReal) (n : Fin 2048) (k : Fin 64) : EReal :=
  max ((∑ j : Fin 128, feat (ix2 n j) * w1 (ix2 j k)) + b1 (ix1 k)) 0

/-- The logit of node `n`: the hidden row against the one output column, plus the output bias. -/
def logit (feat : (⟨2, ![2048, 128]⟩ : Shape).Idx → EReal) (w1 : (⟨2, ![128, 64]⟩ : Shape).Idx → EReal)
    (b1 : (⟨1, ![64]⟩ : Shape).Idx → EReal) (w2 : (⟨2, ![64, 1]⟩ : Shape).Idx → EReal)
    (b2 : (⟨1, ![1]⟩ : Shape).Idx → EReal) (n : Fin 2048) : EReal :=
  (∑ k : Fin 64, hiddenUnit feat w1 b1 n k * w2 (ix2 k (0 : Fin 1))) + b2 (ix1 (0 : Fin 1))

/-- The gate of node `n`: the logistic function of its logit. -/
def gate (feat : (⟨2, ![2048, 128]⟩ : Shape).Idx → EReal) (w1 : (⟨2, ![128, 64]⟩ : Shape).Idx → EReal)
    (b1 : (⟨1, ![64]⟩ : Shape).Idx → EReal) (w2 : (⟨2, ![64, 1]⟩ : Shape).Idx → EReal)
    (b2 : (⟨1, ![1]⟩ : Shape).Idx → EReal) (n : Fin 2048) : EReal :=
  Ideal.logistic (logit feat w1 b1 w2 b2 n)

/-- The history with every entry of node `n` scaled by `g n`, on all batches, times and channels. -/
def gated (hist : (⟨4, ![32, 48, 2048, 32]⟩ : Shape).Idx → EReal) (g : Fin 2048 → EReal) :
    (⟨4, ![32, 48, 2048, 32]⟩ : Shape).Idx → EReal :=
  fun i => hist i * g ⟨(i 2).val, (i 2).isLt⟩

end Cert.GateSpec

end
-- ==== Proof.GatePayload.lean ====
/-
  The gate kernel's one store, read at an entry, is the gate of the specification.

  At the exact values the two roundings to bfloat16 are the identity and a matrix product into a zero accumulator is the
  plain sum over the contracted axis, so the body's chain reads off directly: the first product plus the bias row, rectified,
  is the hidden unit; the second product plus the output bias is the logit; the logistic operation of it is the gate; and
  the final broadcast copies node `n`'s gate to each of the 32 channels.
-/
import proofs.«151967_j6640019440014_1_alg».proof.Proof.Gen.KernelIdeal.Skeleton
import proofs.«151967_j6640019440014_1_alg».proof.Proof.GateSpec
import Idealize.ShloMosaic.PureOps.Ideal.Laws
import Idealize.ShloMosaic.Lib.Pipeline.Value
import Idealize.ShloMosaic.Lib.ValueIdx

noncomputable section

open scoped BigOperators

namespace Cert.KernelIdeal.GatePayload

open Cert.KernelIdeal Cert.KernelIdeal.Gen Idealize.ShloMosaic Idealize.ShloMosaic.ValueIdx Cert.GateSpec

/-! ## The two products' operand indices, axis by axis -/

theorem first_lhs_0 (i : S2048x64.Idx) (q : dot_S2048x128_S128x64_S2048x64_1_0_0_1_n_n.contr.Idx) : (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem first_lhs_1 (i : S2048x64.Idx) (q : dot_S2048x128_S128x64_S2048x64_1_0_0_1_n_n.contr.Idx) : (dot_S2048x128_S128x64_S2048x64_1_0_0_1_n_n.lhsIdx i q 1).val = (q ⟨0, by decide⟩).val :=
  dot_S2048x128_S128x64_S2048x64_1_0_0_1_n_n.lhsIdx_val_of_single rfl i q
theorem first_rhs_0 (i : S2048x64.Idx) (q : dot_S2048x128_S128x64_S2048x64_1_0_0_1_n_n.contr.Idx) : (dot_S2048x128_S128x64_S2048x64_1_0_0_1_n_n.rhsIdx i q 0).val = (q ⟨0, by decide⟩).val :=
  dot_S2048x128_S128x64_S2048x64_1_0_0_1_n_n.rhsIdx_val_of_single rfl i q
theorem first_rhs_1 (i : S2048x64.Idx) (q : dot_S2048x128_S128x64_S2048x64_1_0_0_1_n_n.contr.Idx) : (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

theorem second_lhs_0 (i : S2048x1.Idx) (q : dot_S2048x64_S64x1_S2048x1_1_0_0_1_n_n.contr.Idx) : (dot_S2048x64_S64x1_S2048x1_1_0_0_1_n_n.lhsIdx i q 0).val = (i 0).val := by
  unfold DotDims.lhsIdx
  rw [dif_neg (show ¬(0 : Fin S2048x64.rank) ∈ dot_S2048x64_S64x1_S2048x1_1_0_0_1_n_n.lhsBatch by decide), dif_pos (show (0 : Fin S2048x64.rank) ∈ dot_S2048x64_S64x1_S2048x1_1_0_0_1_n_n.lhsNonContracting by decide)]
  rfl
theorem second_lhs_1 (i : S2048x1.Idx) (q : dot_S2048x64_S64x1_S2048x1_1_0_0_1_n_n.contr.Idx) : (dot_S2048x64_S64x1_S2048x1_1_0_0_1_n_n.lhsIdx i q 1).val = (q ⟨0, by decide⟩).val :=
  dot_S2048x64_S64x1_S2048x1_1_0_0_1_n_n.lhsIdx_val_of_single rfl i q
theorem second_rhs_0 (i : S2048x1.Idx) (q : dot_S2048x64_S64x1_S2048x1_1_0_0_1_n_n.contr.Idx) : (dot_S2048x64_S64x1_S2048x1_1_0_0_1_n_n.rhsIdx i q 0).val = (q ⟨0, by decide⟩).val :=
  dot_S2048x64_S64x1_S2048x1_1_0_0_1_n_n.rhsIdx_val_of_single rfl i q
theorem second_rhs_1 (i : S2048x1.Idx) (q : dot_S2048x64_S64x1_S2048x1_1_0_0_1_n_n.contr.Idx) : (dot_S2048x64_S64x1_S2048x1_1_0_0_1_n_n.rhsIdx i q 1).val = (i 1).val := by
  unfold DotDims.rhsIdx
  rw [dif_neg (show ¬(1 : Fin S64x1.rank) ∈ dot_S2048x64_S64x1_S2048x1_1_0_0_1_n_n.rhsBatch by decide), dif_pos (show (1 : Fin S64x1.rank) ∈ dot_S2048x64_S64x1_S2048x1_1_0_0_1_n_n.rhsNonContracting by decide)]
  rfl

/-! ## The products as sums -/

/-- The first product at (n, k): the node's feature row against column `k` of the weights. -/
theorem first_product (l : FVec Ideal S2048x128 .bf16) (r : FVec Ideal S128x64 .bf16) (n : Fin 2048) (k : Fin 64) :
    matmul dot_S2048x128_S128x64_S2048x64_1_0_0_1_n_n none l r (constant S2048x64 .f32 0x00000000#32) (ix2 n k) = ∑ j : Fin 128, l (ix2 n j) * r (ix2 j k) := by
  simp only [matmul]
  rw [Ideal.matmul_constant_zero_apply, ← Equiv.sum_comp (contrEquiv1 dot_S2048x128_S128x64_S2048x64_1_0_0_1_n_n 128 rfl rfl).symm]
  refine Finset.sum_congr rfl fun j _ => ?_
  have hj := contrEquiv1_symm_val dot_S2048x128_S128x64_S2048x64_1_0_0_1_n_n 128 rfl rfl j
  have el : dot_S2048x128_S128x64_S2048x64_1_0_0_1_n_n.lhsIdx (ix2 n k) ((contrEquiv1 dot_S2048x128_S128x64_S2048x64_1_0_0_1_n_n 128 rfl rfl).symm j) = ix2 n j := funext fun a => Fin.ext (by
    match a with
    | ⟨0, _⟩ => exact first_lhs_0 _ _
    | ⟨1, _⟩ => exact (first_lhs_1 _ _).trans hj)
  have er : dot_S2048x128_S128x64_S2048x64_1_0_0_1_n_n.rhsIdx (ix2 n k) ((contrEquiv1 dot_S2048x128_S128x64_S2048x64_1_0_0_1_n_n 128 rfl rfl).symm j) = ix2 j k := funext fun a => Fin.ext (by
    match a with
    | ⟨0, _⟩ => exact (first_rhs_0 _ _).trans hj
    | ⟨1, _⟩ => exact first_rhs_1 _ _)
  rw [el, er]

/-- The second product at (n, 0): the node's hidden row against the one output column. -/
theorem second_product (l : FVec Ideal S2048x64 .bf16) (r : FVec Ideal S64x1 .bf16) (n : Fin 2048) :
    matmul dot_S2048x64_S64x1_S2048x1_1_0_0_1_n_n none l r (constant S2048x1 .f32 0x00000000#32) (ix2 n (0 : Fin 1)) = ∑ k : Fin 64, l (ix2 n k) * r (ix2 k (0 : Fin 1)) := by
  simp only [matmul]
  rw [Ideal.matmul_constant_zero_apply, ← Equiv.sum_comp (contrEquiv1 dot_S2048x64_S64x1_S2048x1_1_0_0_1_n_n 64 rfl rfl).symm]
  refine Finset.sum_congr rfl fun k _ => ?_
  have hk := contrEquiv1_symm_val dot_S2048x64_S64x1_S2048x1_1_0_0_1_n_n 64 rfl rfl k
  have el : dot_S2048x64_S64x1_S2048x1_1_0_0_1_n_n.lhsIdx (ix2 n (0 : Fin 1)) ((contrEquiv1 dot_S2048x64_S64x1_S2048x1_1_0_0_1_n_n 64 rfl rfl).symm k) = ix2 n k := funext fun a => Fin.ext (by
    match a with
    | ⟨0, _⟩ => exact second_lhs_0 _ _
    | ⟨1, _⟩ => exact (second_lhs_1 _ _).trans hk)
  have er : dot_S2048x64_S64x1_S2048x1_1_0_0_1_n_n.rhsIdx (ix2 n (0 : Fin 1)) ((contrEquiv1 dot_S2048x64_S64x1_S2048x1_1_0_0_1_n_n 64 rfl rfl).symm k) = ix2 k (0 : Fin 1) := funext fun a => Fin.ext (by
    match a with
    | ⟨0, _⟩ => exact (second_rhs_0 _ _).trans hk
    | ⟨1, _⟩ => exact second_rhs_1 _ _)
  rw [el, er]

/-! ## The broadcasts -/

/-- The first bias, given a leading unit axis and broadcast down the rows, reads `b1 k` at (n, k). -/
theorem bias_row (b1 : (⟨1, ![64]⟩ : Shape).Idx → EReal) (n : Fin 2048) (k : Fin 64) :
    broadcastTo S2048x64 (shapeCast S1x64 (shapeCast S1x64 b1 shapeCasts_S64_S1x64) shapeCasts_S1x64_S1x64) broadcasts_S1x64_S2048x64 (ix2 n k) = b1 (ix1 k) := by
  rw [shapeCast_self, broadcastTo_apply _ broadcasts_S1x64_S2048x64 (ix2 n k) (ix2 (0 : Fin 1) k) (fun a => match a with
      | ⟨0, _⟩ => by show 0 = if (1 : Nat) = 1 then 0 else _; rw [if_pos rfl]
      | ⟨1, _⟩ => by show k.val = if (64 : Nat) = 1 then 0 else k.val; rw [if_neg (by decide)])]
  exact shapeCast_apply b1 shapeCasts_S64_S1x64 (ix2 (0 : Fin 1) k) (ix1 k) (by
    rw [Shape.rowMajor_val_one, Shape.rowMajor_val_two]; show k.val = 0 * 64 + k.val; omega)

/-- The output bias, made one by one and broadcast down the rows, reads `b2 0` at (n, 0). -/
theorem bias_one (b2 : (⟨1, ![1]⟩ : Shape).Idx → EReal) (n : Fin 2048) :
    broadcastTo S2048x1 (shapeCast S1x1 (shapeCast S1x1 b2 shapeCasts_S1_S1x1) shapeCasts_S1x1_S1x1) broadcasts_S1x1_S2048x1 (ix2 n (0 : Fin 1)) = b2 (ix1 (0 : Fin 1)) := by
  rw [shapeCast_self, broadcastTo_apply _ broadcasts_S1x1_S2048x1 (ix2 n (0 : Fin 1)) (ix2 (0 : Fin 1) (0 : Fin 1)) (fun a => match a with
      | ⟨0, _⟩ => by show 0 = if (1 : Nat) = 1 then 0 else _; rw [if_pos rfl]
      | ⟨1, _⟩ => by show 0 = if (1 : Nat) = 1 then 0 else _; rw [if_pos rfl])]
  exact shapeCast_apply b2 shapeCasts_S1_S1x1 (ix2 (0 : Fin 1) (0 : Fin 1)) (ix1 (0 : Fin 1)) (by
    rw [Shape.rowMajor_val_one, Shape.rowMajor_val_two]; rfl)

/-- A column broadcast across the 32 channels reads the column's entry of the row. -/
theorem spread (g : (⟨2, ![2048, 1]⟩ : Shape).Idx → EReal) (n : Fin 2048) (ch : Fin 32) :
    broadcastTo S2048x32 (shapeCast S2048x1 g shapeCasts_S2048x1_S2048x1) broadcasts_S2048x1_S2048x32 (ix2 n ch) = g (ix2 n (0 : Fin 1)) := by
  rw [shapeCast_self]
  exact broadcastTo_apply g broadcasts_S2048x1_S2048x32 (ix2 n ch) (ix2 n (0 : Fin 1)) (fun a => match a with
      | ⟨0, _⟩ => by show n.val = if (2048 : Nat) = 1 then 0 else n.val; rw [if_neg (by decide)]
      | ⟨1, _⟩ => by show 0 = if (1 : Nat) = 1 then 0 else _; rw [if_pos rfl])

/-! ## The store's value at an entry -/

/-- The body's value at (n, ch), with the two biases given as the reshaped launch arrays, is the gate of node `n`. -/
theorem gate_apply (u d : Vec Ideal S2048x64 .f32) (w1 : Vec Ideal S128x64 .f32) (b1 : (⟨1, ![64]⟩ : Shape).Idx → EReal)
    (w2 : Vec Ideal S64x1 .f32) (b2 : (⟨1, ![1]⟩ : Shape).Idx → EReal) (n : Fin 2048) (ch : Fin 32) :
    k0_pay1 (F := Ideal) u d w1 (shapeCast S1x64 b1 shapeCasts_S64_S1x64) w2 (shapeCast S1x1 b2 shapeCasts_S1_S1x1) (ix2 n ch)
      = gate (concatenate S2048x128 1 [⟨S2048x64, u⟩, ⟨S2048x64, d⟩] concatenates_S2048x64_S2048x64_S2048x128_d1) w1 b1 w2 b2 n := by
  unfold k0_pay1
  rw [spread]
  unfold gate logit
  show Ideal.logistic (matmul (F := Ideal) dot_S2048x64_S64x1_S2048x1_1_0_0_1_n_n none _ _ (constant (F := Ideal) S2048x1 .f32 0x00000000#32) (ix2 n (0 : Fin 1))
      + broadcastTo S2048x1 _ broadcasts_S1x1_S2048x1 (ix2 n (0 : Fin 1))) = Ideal.logistic (_ + _)
  rw [second_product, bias_one]
  refine congrArg (fun s => Ideal.logistic (s + b2 (ix1 (0 : Fin 1)))) (Finset.sum_congr rfl fun k _ => ?_)
  unfold hiddenUnit
  show max (matmul (F := Ideal) dot_S2048x128_S128x64_S2048x64_1_0_0_1_n_n none _ _ (constant (F := Ideal) S2048x64 .f32 0x00000000#32) (ix2 n k)
      + broadcastTo S2048x64 _ broadcasts_S1x64_S2048x64 (ix2 n k)) (Ideal.ofBits .f32 0x00000000#32) * w2 (ix2 k (0 : Fin 1)) = _
  rw [first_product, bias_row, Ideal.ofBits_zero_f32]
  rfl

end Cert.KernelIdeal.GatePayload

end
-- ==== Proof.KernelValue.lean ====
/-
  The two-region program's result, entry by entry, is the gated history of the specification.

  Reshapes keep row-major positions. The entry (b, t, n, ch) of the folded result sits at position
  ((b·48 + t)·2048 + n)·32 + ch, which in the flattened [1536, 65536] array is row b·48 + t and column n·32 + ch. There the
  multiply region left the flattened history entry, which is the history at (b, t, n, ch) again, times the flattened gate at
  column n·32 + ch, which is the gate array at (n, ch): the gate of node `n`.
-/
import proofs.«151967_j6640019440014_1_alg».proof.Proof.Stretches
import proofs.«151967_j6640019440014_1_alg».proof.Proof.GatePayload

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.GateSpec

/-- The folded index (b, t, n, ch) and the flattened index (b·48 + t, n·32 + ch) are at one row-major position. -/
theorem position_fold (b : Fin 32) (t : Fin 48) (n : Fin 2048) (ch : Fin 32) (hr : b.val * 48 + t.val < 1536) (hq : n.val * 32 + ch.val < 65536) :
    (S1536x65536.rowMajor (ix2 (⟨b.val * 48 + t.val, hr⟩ : Fin 1536) (⟨n.val * 32 + ch.val, hq⟩ : Fin 65536))).val
      = (S32x48x2048x32.rowMajor (ix4 b t n ch)).val := by
  rw [Shape.rowMajor_val_two, Shape.rowMajor_val_four]
  show (b.val * 48 + t.val) * 65536 + (n.val * 32 + ch.val) = ((b.val * 48 + t.val) * 2048 + n.val) * 32 + ch.val
  omega

/-- The gate array's (n, ch) and the flattened row's column n·32 + ch are at one row-major position. -/
theorem position_gate (n : Fin 2048) (ch : Fin 32) (hq : n.val * 32 + ch.val < 65536) :
    (S2048x32.rowMajor (ix2 n ch)).val = (S1x65536.rowMajor (ix2 (0 : Fin 1) (⟨n.val * 32 + ch.val, hq⟩ : Fin 65536))).val := by
  rw [Shape.rowMajor_val_two, Shape.rowMajor_val_two]
  show n.val * 32 + ch.val = 0 * 65536 + (n.val * 32 + ch.val)
  omega

variable (m : (ℓ : Loc nD τ sig) → Buf (Elt Ideal) ℓ)

/-- The program's result from the launch arrays is the history gated node by node. -/
theorem value_eq (c : Dev nD) :
    Stretches.resultFromLaunch (F := Ideal) m c
      = gated (m ((c.tc : Thread nD τ).loc main_arg2))
          (gate (concatenate S2048x128 1 [⟨S2048x64, (m ((c.tc : Thread nD τ).loc main_arg0))⟩, ⟨S2048x64, (m ((c.tc : Thread nD τ).loc main_arg1))⟩] concatenates_S2048x64_S2048x64_S2048x128_d1)
            (m ((c.tc : Thread nD τ).loc main_arg3)) (m ((c.tc : Thread nD τ).loc main_arg4)) (m ((c.tc : Thread nD τ).loc main_arg5)) (m ((c.tc : Thread nD τ).loc main_arg6))) := by
  funext i
  obtain ⟨b, t, n, ch, rfl⟩ : ∃ (b : Fin 32) (t : Fin 48) (n : Fin 2048) (ch : Fin 32), i = ix4 b t n ch :=
    ⟨i 0, i 1, i 2, i 3, eq_ix4 i⟩
  have hr : b.val * 48 + t.val < 1536 := by have := b.isLt; have := t.isLt; omega
  have hq : n.val * 32 + ch.val < 65536 := by have := n.isLt; have := ch.isLt; omega
  show shapeCast S32x48x2048x32
      (ScaleRegion.rowScaled (shapeCast S1536x65536 (m ((c.tc : Thread nD τ).loc main_arg2)) shapeCasts_S32x48x2048x32_S1536x65536)
        (shapeCast S1x65536 (Stretches.gateFromLaunch (F := Ideal) m c) shapeCasts_S2048x32_S1x65536))
      shapeCasts_S1536x65536_S32x48x2048x32 (ix4 b t n ch) = _
  rw [shapeCast_apply _ shapeCasts_S1536x65536_S32x48x2048x32 (ix4 b t n ch)
    (ix2 (⟨b.val * 48 + t.val, hr⟩ : Fin 1536) (⟨n.val * 32 + ch.val, hq⟩ : Fin 65536)) (position_fold b t n ch hr hq)]
  -- the flattened history at that entry is the history at (b, t, n, ch)
  have e_hist : shapeCast S1536x65536 (m ((c.tc : Thread nD τ).loc main_arg2)) shapeCasts_S32x48x2048x32_S1536x65536
      (ix2 (⟨b.val * 48 + t.val, hr⟩ : Fin 1536) (⟨n.val * 32 + ch.val, hq⟩ : Fin 65536)) = (m ((c.tc : Thread nD τ).loc main_arg2)) (ix4 b t n ch) :=
    shapeCast_apply (m ((c.tc : Thread nD τ).loc main_arg2)) shapeCasts_S32x48x2048x32_S1536x65536
      (ix2 (⟨b.val * 48 + t.val, hr⟩ : Fin 1536) (⟨n.val * 32 + ch.val, hq⟩ : Fin 65536)) (ix4 b t n ch) (position_fold b t n ch hr hq).symm
  -- the flattened gate in that column is the gate array at (n, ch)
  have e_flat : shapeCast S1x65536 (Stretches.gateFromLaunch (F := Ideal) m c) shapeCasts_S2048x32_S1x65536
      (ix2 (0 : Fin 1) (⟨n.val * 32 + ch.val, hq⟩ : Fin 65536)) = Stretches.gateFromLaunch (F := Ideal) m c (ix2 n ch) :=
    shapeCast_apply (Stretches.gateFromLaunch (F := Ideal) m c) shapeCasts_S2048x32_S1x65536
      (ix2 (0 : Fin 1) (⟨n.val * 32 + ch.val, hq⟩ : Fin 65536)) (ix2 n ch) (position_gate n ch hq)
  -- which is the gate of node n
  have e_gate : Stretches.gateFromLaunch (F := Ideal) m c (ix2 n ch)
      = gate (concatenate S2048x128 1 [⟨S2048x64, (m ((c.tc : Thread nD τ).loc main_arg0))⟩, ⟨S2048x64, (m ((c.tc : Thread nD τ).loc main_arg1))⟩] concatenates_S2048x64_S2048x64_S2048x128_d1)
          (m ((c.tc : Thread nD τ).loc main_arg3)) (m ((c.tc : Thread nD τ).loc main_arg4)) (m ((c.tc : Thread nD τ).loc main_arg5)) (m ((c.tc : Thread nD τ).loc main_arg6)) n :=
    GatePayload.gate_apply (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) n ch
  exact congrArg₂ (FloatOps.mulf (F := Ideal) (φ := .f32)) e_hist (e_flat.trans e_gate)

end Cert.KernelIdeal.KernelValue

end
-- ==== Proof.ReferenceValue.lean ====
/-
  The reference's result, read one operation at a time, is the gated history of the specification.

  The generated read-at-an-index lemmas turn each stage of the reference into its operands at an index. Chained, the
  stage after the rectifier at (n, k) is the hidden unit `hiddenUnit n k`, the stage after the second bias at (n, 0) is
  `logit n`, and the quotient `1 / (1 + exp (-logit n))` the reference spells out with the host's negate, exponential, add
  and divide is, on the extended reals, the logistic function itself. The two trailing broadcasts read node `n`'s gate at
  every batch, time and channel, and the last multiply is the history entry times that gate.
-/
import proofs.«151967_j6640019440014_1_alg».proof.Proof.Gen.ReferenceIdeal.Run
import proofs.«151967_j6640019440014_1_alg».proof.Proof.Gen.ReferenceIdeal.Read
import proofs.«151967_j6640019440014_1_alg».proof.Proof.GateSpec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx Cert.GateSpec

variable (x0 x1 : (⟨S2048x64, .f32⟩ : BufTy).Contents (Elt Ideal)) (x2 : (⟨S32x48x2048x32, .f32⟩ : BufTy).Contents (Elt Ideal))
  (x3 : (⟨S128x64, .f32⟩ : BufTy).Contents (Elt Ideal)) (x4 : (⟨S64, .f32⟩ : BufTy).Contents (Elt Ideal))
  (x5 : (⟨S64x1, .f32⟩ : BufTy).Contents (Elt Ideal)) (x6 : (⟨S1, .f32⟩ : BufTy).Contents (Elt Ideal))

/-- The rectified first layer at (n, k) is hidden unit `k` of node `n`. -/
theorem hidden_eq (n : Fin 2048) (k : Fin 64) :
    val_main_v5 (F := Ideal) x0 x1 x3 x4 (ix2 n k) = hiddenUnit (val_main_v0 (F := Ideal) x0 x1) x3 x4 n k := by
  rw [val_main_v5_apply, val_main_v4_apply, val_main_v1_apply, val_main_v3_apply, val_main_v2_apply,
    val_main_call0_v0_apply, val_main_call0_cst_apply]
  unfold hiddenUnit
  have el : ∀ j : Fin 128, lidx_main_v1 (ix2 n k) j = ix2 n j := fun j => funext fun a => by
    match a with | ⟨0, _⟩ => rfl | ⟨1, _⟩ => rfl
  have er : ∀ j : Fin 128, ridx_main_v1 (ix2 n k) j = ix2 j k := fun j => funext fun a => by
    match a with | ⟨0, _⟩ => rfl | ⟨1, _⟩ => rfl
  have eb : idx_main_v2 (idx_main_v3 (ix2 n k)) = ix1 k := funext fun a => by
    match a with | ⟨0, _⟩ => rfl
  simp only [el, er, eb, Ideal.maximumf_def, Ideal.addf_def, Ideal.ofBits_def, Ideal.ofBits_zero_f32]

/-- The second layer plus its bias at (n, 0) is the logit of node `n`. -/
theorem logit_eq (n : Fin 2048) :
    val_main_v9 (F := Ideal) x0 x1 x3 x4 x5 x6 (ix2 n (0 : Fin 1)) = logit (val_main_v0 (F := Ideal) x0 x1) x3 x4 x5 x6 n := by
  rw [val_main_v9_apply, val_main_v6_apply, val_main_v8_apply, val_main_v7_apply]
  unfold logit
  have el : ∀ k : Fin 64, lidx_main_v6 (ix2 n (0 : Fin 1)) k = ix2 n k := fun k => funext fun a => by
    match a with | ⟨0, _⟩ => rfl | ⟨1, _⟩ => rfl
  have er : ∀ k : Fin 64, ridx_main_v6 (ix2 n (0 : Fin 1)) k = ix2 k (0 : Fin 1) := fun k => funext fun a => by
    match a with | ⟨0, _⟩ => rfl | ⟨1, _⟩ => rfl
  have eb : idx_main_v7 (idx_main_v8 (ix2 n (0 : Fin 1))) = ix1 (0 : Fin 1) := funext fun a => by
    match a with | ⟨0, _⟩ => rfl
  simp only [el, er, eb, hidden_eq, Ideal.addf_def]

/-- The quotient the reference spells out is the logistic function of the logit: the gate of node `n`. -/
theorem gate_eq (n : Fin 2048) :
    val_main_v15 (F := Ideal) x0 x1 x3 x4 x5 x6 (ix2 n (0 : Fin 1)) = gate (val_main_v0 (F := Ideal) x0 x1) x3 x4 x5 x6 n := by
  rw [val_main_v15_apply, val_main_v14_apply, val_main_cst_0_apply, val_main_v13_apply, val_main_v12_apply,
    val_main_cst_apply, val_main_v11_apply, val_main_v10_apply, logit_eq]
  unfold gate
  simp only [Ideal.ofBits_def, Ideal.ofBits_one_f32]
  rfl

/-- The reference's result is the history gated node by node. -/
theorem result_eq :
    val_main_v18 (F := Ideal) x0 x1 x2 x3 x4 x5 x6 = gated x2 (gate (val_main_v0 (F := Ideal) x0 x1) x3 x4 x5 x6) := by
  funext i
  rw [val_main_v18_apply, val_main_v17_apply, val_main_v16_apply]
  have e : idx_main_v16 (idx_main_v17 i) = ix2 (⟨(i 2).val, (i 2).isLt⟩ : Fin 2048) (0 : Fin 1) := funext fun a => by
    match a with | ⟨0, _⟩ => rfl | ⟨1, _⟩ => rfl
  rw [e, gate_eq]
  rfl

end Cert.ReferenceIdeal.RefValue

end
-- ==== Proof.lean ====
/-
  Two programs, one function. A node's gate is the logistic function of a two-layer perceptron of its two embeddings,
  `gate n = 1 / (1 + e^(-(Σ_k max (Σ_j feat (n, j) · W1 (j, k) + b1 k) 0 · W2 (k, 0) + b2 0)))`, and the result is the
  history with every entry of node `n` multiplied by `gate n`.

  The kernel program computes the gate once in a first region, broadcast over the 32 channels, and multiplies in a second
  region over the history flattened to [1536, 65536]; its roundings to bfloat16 are the identity on exact values and its
  matrix products into zero accumulators are the plain sums. The reference computes the same sums with the host's
  operations and spells the logistic function out as a quotient, which on the extended reals is that function. Both results
  are the specification's `gated` history of the same arguments, index by index; no step needs the inputs to be finite.

  The three frames: the two kernel programs' are the generated frame certificates; the reference's is its generated run with
  the result dropped. The idealization rewrote no operation, so nothing is owed for it.
-/
import proofs.«151967_j6640019440014_1_alg».proof.Defs
import proofs.«151967_j6640019440014_1_alg».proof.Proof.Gen.Kernel
import proofs.«151967_j6640019440014_1_alg».proof.Proof.Gen.Kernel.Skeleton
import proofs.«151967_j6640019440014_1_alg».proof.Proof.Gen.Kernel.Launch
import proofs.«151967_j6640019440014_1_alg».proof.Proof.Gen.Kernel.Points
import proofs.«151967_j6640019440014_1_alg».proof.Proof.Gen.Kernel.Frame
import proofs.«151967_j6640019440014_1_alg».proof.Proof.Gen.KernelIdeal
import proofs.«151967_j6640019440014_1_alg».proof.Proof.Gen.KernelIdeal.Skeleton
import proofs.«151967_j6640019440014_1_alg».proof.Proof.Gen.KernelIdeal.Launch
import proofs.«151967_j6640019440014_1_alg».proof.Proof.Gen.KernelIdeal.Points
import proofs.«151967_j6640019440014_1_alg».proof.Proof.Gen.KernelIdeal.Frame
import proofs.«151967_j6640019440014_1_alg».proof.Proof.Gen.ReferenceIdeal
import proofs.«151967_j6640019440014_1_alg».proof.Proof.Gen.ReferenceIdeal.Run
import proofs.«151967_j6640019440014_1_alg».proof.Proof.Gen.ReferenceIdeal.Read
import proofs.«151967_j6640019440014_1_alg».proof.Proof.Gen.Pre_finite_inputs
import proofs.«151967_j6640019440014_1_alg».proof.Proof.KernelRun
import proofs.«151967_j6640019440014_1_alg».proof.Proof.KernelValue
import proofs.«151967_j6640019440014_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the history gated node by node, a function of the arguments they agree on. -/
theorem algebraic : Cert.algebraic_KernelIdeal_ReferenceIdeal := by
  intro m ρ m' ρ' _ hagree
  refine ⟨fun c => Cert.GateSpec.gated (m ((c.tc : Thread Cert.KernelIdeal.nD Cert.KernelIdeal.τ).loc Cert.KernelIdeal.main_arg2))
      (Cert.GateSpec.gate (concatenate Cert.KernelIdeal.S2048x128 1 [⟨Cert.KernelIdeal.S2048x64, (m ((c.tc : Thread Cert.KernelIdeal.nD Cert.KernelIdeal.τ).loc Cert.KernelIdeal.main_arg0))⟩, ⟨Cert.KernelIdeal.S2048x64, (m ((c.tc : Thread Cert.KernelIdeal.nD Cert.KernelIdeal.τ).loc Cert.KernelIdeal.main_arg1))⟩] Cert.KernelIdeal.Gen.concatenates_S2048x64_S2048x64_S2048x128_d1)
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))), ?_, ?_⟩
  · exact (θ_run Cert.KernelIdeal.defs _ _).mono
      (fun r h c => ⟨(h c).1.trans ((Cert.KernelIdeal.Stretches.result_eq m ρ c).trans (Cert.KernelIdeal.KernelValue.value_eq m c)), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.ReferenceIdeal.RefValue.result_eq,
      (hagree c).1, (hagree c).2.1, (hagree c).2.2.1, (hagree c).2.2.2.1, (hagree c).2.2.2.2.1, (hagree c).2.2.2.2.2.1, (hagree c).2.2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
